-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_1048576_11863283" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S1x1024x128 : Shape := ⟨3, ![1, 1024, 128]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S4x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S2048x128, .bf16⟩
  | .local _ .vmem, ⟨9, _⟩ => ⟨S2048x128, .bf16⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x128_S64x2048x128 : S4x16x2048x128.ShapeCasts S64x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  shapeCasts_S64x2048x128_S4x16x2048x128 : S64x2048x128.ShapeCasts S4x16x2048x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x2048x128.size a
  hwx0_0 : ∀ i : grid0.Coords, EltTy.bits .f32 = 32 ∨ (Rect.block (s := S64x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x2048x128.size a
  hwx0_3 : ∀ i : grid0.Coords, EltTy.bits .f32 = 32 ∨ (Rect.block (s := S64x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.Attn.lean ====
/-
  Scaled dot-product attention for ONE query row and ONE output column, written two ways over the extended reals.

  A query row `q : Fin 128 → EReal`, the keys `k : Fin 2048 → Fin 128 → EReal` and one column of the values
  `v : Fin 2048 → EReal` give one entry of the output.

  * `kerEntry c` scales the query by `c` BEFORE the contraction, `s j = ∑ d, (q d · c) · k j d`, shifts by the row maximum
    `M`, and divides ONCE at the end: `(∑ j, exp (s j − M) · v j) / (∑ j, exp (s j − M))`.
  * `refEntry D` divides the contraction by `D` AFTERWARDS, `s j = (∑ d, q d · k j d) / D`, normalises each weight,
    `exp (s j − M) / ∑ j', exp (s j' − M)`, and then takes the weighted sum with `v`.

  For finite `q`, `k`, `v` and `c = 1 / D` with `D` a nonzero real the two are equal (`kerEntry_eq_refEntry`): the
  scores agree because a finite sum of reals distributes over the factor `1 / D`; the scores being real, so is their
  maximum (a maximum over a nonempty range is attained), every weight `exp (s j − M)` is a positive real, their sum
  is a positive real, and over the reals `(∑ j, p j · v j) / l = ∑ j, (p j / l) · v j`.
-/
import Idealize.ShloMosaic.PureOps.Ideal

noncomputable section

namespace Cert.Attn

open Idealize.ShloMosaic

/-- The maximum of a row of scores, as the fold of `max` from `−∞`. -/
def rowMax (s : Fin 2048 → EReal) : EReal := (Finset.univ : Finset (Fin 2048)).fold max ⊥ s

/-- The unnormalised softmax weight of score `j`. -/
def weight (s : Fin 2048 → EReal) (j : Fin 2048) : EReal := Ideal.exp (s j - rowMax s)

/-- The scores with the query scaled by `c` before the contraction. -/
def scoreMul (c : EReal) (q : Fin 128 → EReal) (k : Fin 2048 → Fin 128 → EReal) (j : Fin 2048) : EReal :=
  ∑ d : Fin 128, (q d * c) * k j d

/-- The scores with the contraction divided by `D` afterwards. -/
def scoreDiv (D : EReal) (q : Fin 128 → EReal) (k : Fin 2048 → Fin 128 → EReal) (j : Fin 2048) : EReal :=
  Ideal.div (∑ d : Fin 128, q d * k j d) D

/-- Weighted sum first, ONE division by the weights' sum at the end. -/
def avgLate (s v : Fin 2048 → EReal) : EReal :=
  Ideal.div (∑ j : Fin 2048, weight s j * v j) (∑ j : Fin 2048, weight s j)

/-- Each weight normalised by the weights' sum first, then the weighted sum. -/
def avgEarly (s v : Fin 2048 → EReal) : EReal :=
  ∑ j : Fin 2048, Ideal.div (weight s j) (∑ j' : Fin 2048, weight s j') * v j

/-- One output entry, the first way. -/
def kerEntry (c : EReal) (q : Fin 128 → EReal) (k : Fin 2048 → Fin 128 → EReal) (v : Fin 2048 → EReal) : EReal :=
  avgLate (scoreMul c q k) v

/-- One output entry, the second way. -/
def refEntry (D : EReal) (q : Fin 128 → EReal) (k : Fin 2048 → Fin 128 → EReal) (v : Fin 2048 → EReal) : EReal :=
  avgEarly (scoreDiv D q k) v

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `−∞` over a nonempty range of reals is a real: adjoining one more real `x` to a range
    whose fold is the real `M` gives `max x M`, and the coercion is monotone, so it commutes with `max`. -/
theorem fold_max_coe {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- A finite sum of products of coerced reals is the coercion of the real sum of products. -/
theorem sum_mul_coe {ι : Type*} [Fintype ι] (a b : ι → ℝ) :
    ∑ j, (a j : EReal) * (b j : EReal) = ((∑ j, a j * b j : ℝ) : EReal) := by
  rw [coe_sum]
  exact Finset.sum_congr rfl fun j _ => (EReal.coe_mul _ _).symm

/-- Over the reals `(∑ j, p j · v j) / l = ∑ j, (p j / l) · v j` for `l ≠ 0`; both sides are the coercion of
    `∑ j, p j · (1 / l) · v j`. -/
theorem div_sum_eq {ι : Type*} [Fintype ι] (p v : ι → ℝ) (L : ℝ) (hL : L ≠ 0) :
    Ideal.div (∑ j, (p j : EReal) * (v j : EReal)) (L : EReal)
      = ∑ j, Ideal.div (p j : EReal) (L : EReal) * (v j : EReal) := by
  rw [Ideal.div_coe hL, sum_mul_coe, ← EReal.coe_mul]
  have h : ∀ j, Ideal.div (p j : EReal) (L : EReal) * (v j : EReal) = ((p j * (1 / L) * v j : ℝ) : EReal) := by
    intro j
    rw [Ideal.div_coe hL, ← EReal.coe_mul, ← EReal.coe_mul]
  rw [Finset.sum_congr rfl fun j _ => h j, ← coe_sum, Finset.sum_mul]
  congr 1
  exact Finset.sum_congr rfl fun j _ => by ring

/-- On real scores and real values the two averages agree: the row maximum is a real `M`, each weight is the
    positive real `exp (s j − M)`, their sum is a positive real, and the real identity above applies. -/
theorem avgLate_eq_avgEarly (s' v' : Fin 2048 → ℝ) :
    avgLate (fun j => (s' j : EReal)) (fun j => (v' j : EReal))
      = avgEarly (fun j => (s' j : EReal)) (fun j => (v' j : EReal)) := by
  obtain ⟨M, hM⟩ := fold_max_coe (Finset.univ : Finset (Fin 2048)) Finset.univ_nonempty s'
  have hw : ∀ j, weight (fun j => (s' j : EReal)) j = ((Real.exp (s' j - M) : ℝ) : EReal) := by
    intro j
    unfold weight rowMax
    rw [hM, ← EReal.coe_sub, Ideal.exp_coe]
  have hL : (∑ j : Fin 2048, Real.exp (s' j - M)) ≠ 0 :=
    (Finset.sum_pos (fun j _ => Real.exp_pos _) Finset.univ_nonempty).ne'
  unfold avgLate avgEarly
  simp only [hw]
  rw [← coe_sum]
  exact div_sum_eq (fun j => Real.exp (s' j - M)) v' _ hL

/-- The two ways agree on finite data when the factor is the reciprocal of the nonzero real divisor. -/
theorem kerEntry_eq_refEntry (D : ℝ) (hD : D ≠ 0) (q : Fin 128 → EReal) (k : Fin 2048 → Fin 128 → EReal)
    (v : Fin 2048 → EReal) (hq : ∀ d, ∃ r : ℝ, q d = (r : EReal)) (hk : ∀ j d, ∃ r : ℝ, k j d = (r : EReal))
    (hv : ∀ j, ∃ r : ℝ, v j = (r : EReal)) :
    kerEntry (((1 / D : ℝ)) : EReal) q k v = refEntry ((D : ℝ) : EReal) q k v := by
  choose q' hq' using hq
  choose k' hk' using hk
  choose v' hv' using hv
  obtain rfl : q = fun d => (q' d : EReal) := funext hq'
  obtain rfl : k = fun j d => (k' j d : EReal) := funext fun j => funext (hk' j)
  obtain rfl : v = fun j => (v' j : EReal) := funext hv'
  have h1 : scoreMul ((1 / D : ℝ) : EReal) (fun d => (q' d : EReal)) (fun j d => (k' j d : EReal))
      = fun j => (((∑ d, q' d * k' j d) * (1 / D) : ℝ) : EReal) := by
    funext j
    rw [scoreMul, Finset.sum_mul, coe_sum]
    refine Finset.sum_congr rfl fun d _ => ?_
    rw [← EReal.coe_mul, ← EReal.coe_mul]
    congr 1
    ring
  have h2 : scoreDiv (D : EReal) (fun d => (q' d : EReal)) (fun j d => (k' j d : EReal))
      = fun j => (((∑ d, q' d * k' j d) * (1 / D) : ℝ) : EReal) := by
    funext j
    rw [scoreDiv, Ideal.div_coe hD, sum_mul_coe, ← EReal.coe_mul]
  rw [kerEntry, refEntry, h1, h2]
  exact avgLate_eq_avgEarly _ v'

end Cert.Attn

end
-- ==== Proof.KPieces.lean ====
/-
  What one grid point of the attention kernel leaves behind, as values.

  The grid is (head, query tile), two tiles per head. At a head's FIRST tile the body narrows the head's keys and
  values to bf16 into two scratch buffers, reads them back, and stores the attention payload of the query tile; at the
  head's SECOND tile it stores nothing into the scratch buffers and computes the payload from what they still hold.
  Each lemma below reads the stores the body's run found back as the payload they carry.
-/
import proofs.«402363_j39676907884408_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a head's first query tile the body stores the narrowed keys into the first scratch buffer: that payload is what it
    holds afterwards. -/
theorem keys_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x128) hz3]

/-- Likewise the narrowed values in the second scratch buffer. -/
theorem vals_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x128) hz3]

/-- At a head's first query tile the output block is the attention payload of the query block and of the keys and
    values just narrowed (the body reads the scratch buffers back after storing them). -/
theorem out_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x1024x128) hz3, View.ld_unit_zero (S := S1x2048x128) hz3,
    View.readCov_unit_zero (S := S2048x128) _ hz2]

/-- At a head's later query tile the output block is the attention payload of the query block and of what the scratch
    buffers hold from the point before. -/
theorem out_later (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : ¬cond0_0 i)
    (x0 : Vec F S1x1024x128 .f32) (x1 : Vec F S1x2048x128 .f32) (x2 : Vec F S1x2048x128 .f32)
    (xs0 xs1 : Vec F S2048x128 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread,
    View.ld_unit_zero (S := S1x1024x128) hz3, View.ld_unit_zero (S := S2048x128) hz2]

end Cert.KernelIdeal.Pieces
end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.KPay.lean ====
/-
  The attention payload of one query tile, read at one entry on the extended reals.

  The payload takes a query tile `x0` (1024 rows), the head's keys `ks` and values `vs` (2048 rows each) and returns
  `softmax (x0 · c · ksᵀ) · vs`, the softmax's division done once on the product. On the extended reals every change of
  float format is the identity, each matrix product into the zero array is the plain sum over its contracted axis, the
  lane maximum is the fold of `max` from `−∞` and the lane sum the sum, so entry `(i, d)` is `Attn.kerEntry` of row
  `i` of the queries, of the keys, and of column `d` of the values. The factor `c` is the named constant, `1048576 / 11863283`.
  The payloads that narrow the keys and the values only drop the block's leading unit axis.
-/
import proofs.«402363_j39676907884408_3_alg».proof.Proof.Gen.KernelIdeal.Skeleton
import proofs.«402363_j39676907884408_3_alg».proof.Proof.Attn
import proofs.«402363_j39676907884408_3_alg».proof.Proof.LibPlainDot
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The factor the queries are multiplied by is the named reciprocal of the reference's divisor. -/
theorem scale_named :
    Named.named (F := Ideal) Cert.KernelIdeal.κ "fold_c_1048576_11863283" (φ := .f32) 0x3DB504F3#32
      = ((1048576 / 11863283 : ℝ) : EReal) :=
  IdealRules.named_const.ideal_named_scalar _ _ _ _ rfl

/-- `−∞`'s pattern. -/
theorem ofBits_neg_inf : Ideal.ofBits .f32 0xFF800000#32 = ⊥ := by
  simp [Ideal.ofBits, Ideal.ieee]

/-! ## The queries-by-keys product: both operands contracted on their second axis -/

theorem qk_lhs_0 (j : S1024x2048.Idx) (q : dot_S1024x128_S2048x128_S1024x2048_1_1_0_0_n_n.contr.Idx) :
    (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem qk_lhs_1 (j : S1024x2048.Idx) (q : dot_S1024x128_S2048x128_S1024x2048_1_1_0_0_n_n.contr.Idx) :
    (dot_S1024x128_S2048x128_S1024x2048_1_1_0_0_n_n.lhsIdx j q 1).val = (q ⟨0, by decide⟩).val :=
  dot_S1024x128_S2048x128_S1024x2048_1_1_0_0_n_n.lhsIdx_val_of_single rfl j q
theorem qk_rhs_0 (j : S1024x2048.Idx) (q : dot_S1024x128_S2048x128_S1024x2048_1_1_0_0_n_n.contr.Idx) :
    (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem qk_rhs_1 (j : S1024x2048.Idx) (q : dot_S1024x128_S2048x128_S1024x2048_1_1_0_0_n_n.contr.Idx) :
    (dot_S1024x128_S2048x128_S1024x2048_1_1_0_0_n_n.rhsIdx j q 1).val = (q ⟨0, by decide⟩).val :=
  dot_S1024x128_S2048x128_S1024x2048_1_1_0_0_n_n.rhsIdx_val_of_single rfl j q

/-- Entry `(i, j)` of the scores: the sum over the head dimension of query row `i` times key row `j`. -/
theorem qk_apply (A : FVec Ideal S1024x128 .bf16) (B : FVec Ideal S2048x128 .bf16) (i : Fin 1024) (j : Fin 2048) :
    matmul dot_S1024x128_S2048x128_S1024x2048_1_1_0_0_n_n none A B (constant (F := Ideal) S1024x2048 .f32 0x00000000#32) (ix2 i j)
      = ∑ d : Fin 128, A (ix2 i d) * B (ix2 j d) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 i j) ((contrEquiv1 dot_S1024x128_S2048x128_S1024x2048_1_1_0_0_n_n 128 rfl rfl).symm k) = ix2 i k :=
    funext fun a => Fin.ext (by
      match a with
      | ⟨0, _⟩ => exact qk_lhs_0 _ _
      | ⟨1, _⟩ => exact (qk_lhs_1 _ _).trans hk)
  have er : dot_S1024x128_S2048x128_S1024x2048_1_1_0_0_n_n.rhsIdx (ix2 i j) ((contrEquiv1 dot_S1024x128_S2048x128_S1024x2048_1_1_0_0_n_n 128 rfl rfl).symm k) = ix2 j k :=
    funext fun a => Fin.ext (by
      match a with
      | ⟨0, _⟩ => exact qk_rhs_0 _ _
      | ⟨1, _⟩ => exact (qk_rhs_1 _ _).trans hk)
  rw [el, er]

/-! ## The weights-by-values product: the plain kind -/

theorem pv_lhs_0 (j : S1024x128.Idx) (q : dot_S1024x2048_S2048x128_S1024x128_1_0_0_1_n_n.contr.Idx) :
    (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem pv_lhs_1 (j : S1024x128.Idx) (q : dot_S1024x2048_S2048x128_S1024x128_1_0_0_1_n_n.contr.Idx) :
    (dot_S1024x2048_S2048x128_S1024x128_1_0_0_1_n_n.lhsIdx j q 1).val = (q ⟨0, by decide⟩).val :=
  dot_S1024x2048_S2048x128_S1024x128_1_0_0_1_n_n.lhsIdx_val_of_single rfl j q
theorem pv_rhs_0 (j : S1024x128.Idx) (q : dot_S1024x2048_S2048x128_S1024x128_1_0_0_1_n_n.contr.Idx) :
    (dot_S1024x2048_S2048x128_S1024x128_1_0_0_1_n_n.rhsIdx j q 0).val = (q ⟨0, by decide⟩).val :=
  dot_S1024x2048_S2048x128_S1024x128_1_0_0_1_n_n.rhsIdx_val_of_single rfl j q
theorem pv_rhs_1 (j : S1024x128.Idx) (q : dot_S1024x2048_S2048x128_S1024x128_1_0_0_1_n_n.contr.Idx) :
    (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Entry `(i, d)` of the weighted values: the sum over the keys of weight `(i, j)` times value `(j, d)`. -/
theorem pv_apply (P : FVec Ideal S1024x2048 .bf16) (W : FVec Ideal S2048x128 .bf16) (i : Fin 1024) (d : Fin 128) :
    matmul dot_S1024x2048_S2048x128_S1024x128_1_0_0_1_n_n none P W (constant (F := Ideal) S1024x128 .f32 0x00000000#32) (ix2 i d)
      = ∑ j : Fin 2048, P (ix2 i j) * W (ix2 j d) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 i d) ((contrEquiv1 dot_S1024x2048_S2048x128_S1024x128_1_0_0_1_n_n 2048 rfl rfl).symm k) = ix2 i k :=
    funext fun a => Fin.ext (by
      match a with
      | ⟨0, _⟩ => exact pv_lhs_0 _ _
      | ⟨1, _⟩ => exact (pv_lhs_1 _ _).trans hk)
  have er : dot_S1024x2048_S2048x128_S1024x128_1_0_0_1_n_n.rhsIdx (ix2 i d) ((contrEquiv1 dot_S1024x2048_S2048x128_S1024x128_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

/-! ## The lane reductions of a row, and a row vector stood up as a column -/

/-- Inserting `j` on the reduced axis of row index `i` is `(i, j)`. -/
theorem lift_row (i : Fin 1024) (j : Fin 2048) :
    (reduces_S1024x2048_S1024).lift (ix1 i) j = ix2 i j :=
  funext fun a => Fin.ext (by match a with | ⟨0, _⟩ => rfl | ⟨1, _⟩ => rfl)

/-- The lane sum of row `i`. -/
theorem row_sum (X : FVec Ideal S1024x2048 .f32) (i : Fin 1024) :
    multiReduction .add [1] S1024 X 0x00000000#32 reduces_S1024x2048_S1024 (.inl rfl) rfl (ix1 i)
      = ∑ j : Fin 2048, X (ix2 i j) := by
  refine (Ideal.multiReduction_add_single X 0x00000000#32 reduces_S1024x2048_S1024 (.inl rfl) rfl (ix1 i)).trans ?_
  exact Finset.sum_congr rfl fun j _ => congrArg X (lift_row i j)

/-- The lane maximum of row `i`: the fold of `max` from `−∞`. -/
theorem row_max (X : FVec Ideal S1024x2048 .f32) (i : Fin 1024) :
    multiReduction .maximumf [1] S1024 X 0xFF800000#32 reduces_S1024x2048_S1024 (.inl rfl) rfl (ix1 i)
      = (Finset.univ : Finset (Fin 2048)).fold max ⊥ (fun j => X (ix2 i j)) := by
  refine (Ideal.multiReduction_maximumf_single X 0xFF800000#32 reduces_S1024x2048_S1024 (.inl rfl) rfl (ix1 i)).trans ?_
  have e : (X ∘ (reduces_S1024x2048_S1024).lift (ix1 i)) = fun j => X (ix2 i j) :=
    funext fun j => congrArg X (lift_row i j)
  rw [e]
  exact congrArg (fun b => (Finset.univ : Finset (Fin 2048)).fold max b (fun j => X (ix2 i j))) ofBits_neg_inf

/-- A length-1024 vector cast to a 1024 x 1 column reads, at `(i, u)`, the vector at `i`. -/
theorem col_of_vec {α : Type} (y : S1024.Idx → α) (i : Fin 1024) (u : Fin 1) :
    shapeCast S1024x1 y shapeCasts_S1024_S1024x1 (ix2 i u) = y (ix1 i) :=
  shapeCast_apply y shapeCasts_S1024_S1024x1 _ _ (by
    have hu : u.val = 0 := by omega
    rw [Shape.rowMajor_val_two, Shape.rowMajor_val_one]
    show i.val = i.val * 1 + u.val
    rw [hu, Nat.mul_one, Nat.add_zero])

/-! ## The payloads that narrow the keys and the values -/

/-- The narrowed keys: the block with its leading unit axis dropped. -/
theorem narrow_keys (x : Vec Ideal S1x2048x128 .f32) (r : Fin 2048) (d : Fin 128) :
    k0_pay1 (F := Ideal) x (ix2 r d) = x (ix3 (0 : Fin 1) r d) := by
  unfold k0_pay1
  rw [shapeCast_self]
  exact shapeCast_1ab_ab_apply x shapeCasts_S1x2048x128_S2048x128 r d

/-- The narrowed values likewise. -/
theorem narrow_vals (x : Vec Ideal S1x2048x128 .f32) (r : Fin 2048) (d : Fin 128) :
    k0_pay2 (F := Ideal) x (ix2 r d) = x (ix3 (0 : Fin 1) r d) := by
  unfold k0_pay2
  rw [shapeCast_self]
  exact shapeCast_1ab_ab_apply x shapeCasts_S1x2048x128_S2048x128 r d

/-! ## The attention payload, stage by stage -/

/-- The scores of a query tile against the keys, the queries scaled first. -/
def scoresOf (x0 : Vec Ideal S1x1024x128 .f32) (ks : FVec Ideal S2048x128 .bf16) : FVec Ideal S1024x2048 .f32 :=
  matmul dot_S1024x128_S2048x128_S1024x2048_1_1_0_0_n_n none
    (truncf .bf16 (mulf (shapeCast S1024x128 x0 shapeCasts_S1x1024x128_S1024x128)
      (broadcast S1024x128 (Named.named (F := Ideal) κ "fold_c_1048576_11863283" (φ := .f32) 0x3DB504F3#32))) bitsLt_bf16_f32)
    ks (constant (F := Ideal) S1024x2048 .f32 0x00000000#32)

/-- Each row's maximum, spread back over the row. -/
def shiftOf (X : FVec Ideal S1024x2048 .f32) : FVec Ideal S1024x2048 .f32 :=
  broadcastTo S1024x2048
    (shapeCast S1024x1 (multiReduction .maximumf [1] S1024 X 0xFF800000#32 reduces_S1024x2048_S1024 (.inl rfl) rfl)
      shapeCasts_S1024_S1024x1) broadcasts_S1024x1_S1024x2048

/-- The unnormalised weights. -/
def weightsOf (X : FVec Ideal S1024x2048 .f32) : FVec Ideal S1024x2048 .f32 := exp (subf X (shiftOf X))

/-- The weighted values divided by each row's weight sum, as a block with a leading unit axis. -/
def tailOf (X : FVec Ideal S1024x2048 .f32) (vs : FVec Ideal S2048x128 .bf16) : FVec Ideal S1x1024x128 .f32 :=
  shapeCast S1x1024x128
    (divf (matmul dot_S1024x2048_S2048x128_S1024x128_1_0_0_1_n_n none (truncf .bf16 (weightsOf X) bitsLt_bf16_f32) vs
        (constant (F := Ideal) S1024x128 .f32 0x00000000#32))
      (broadcastTo S1024x128
        (shapeCast S1024x1 (multiReduction .add [1] S1024 (weightsOf X) 0x00000000#32 reduces_S1024x2048_S1024 (.inl rfl) rfl)
          shapeCasts_S1024_S1024x1) broadcasts_S1024x1_S1024x128))
    shapeCasts_S1024x128_S1x1024x128

/-- The payload is these stages composed. -/
theorem pay_eq (x0 : Vec Ideal S1x1024x128 .f32) (ks vs : FVec Ideal S2048x128 .bf16) :
    k0_pay3 (F := Ideal) x0 ks vs = tailOf (scoresOf x0 ks) vs := rfl

/-- Row `i` of the scores. -/
theorem scores_apply (x0 : Vec Ideal S1x1024x128 .f32) (ks : FVec Ideal S2048x128 .bf16) (i : Fin 1024) (j : Fin 2048) :
    scoresOf x0 ks (ix2 i j)
      = Cert.Attn.scoreMul (((1048576 / 11863283 : ℝ)) : EReal) (fun d' => x0 (ix3 (0 : Fin 1) i d'))
          (fun j d' => ks (ix2 j d')) j := by
  unfold scoresOf Cert.Attn.scoreMul
  refine (qk_apply _ ks i j).trans (Finset.sum_congr rfl fun d' _ => ?_)
  refine congrArg (· * ks (ix2 j d')) ?_
  show shapeCast S1024x128 x0 shapeCasts_S1x1024x128_S1024x128 (ix2 i d')
      * Named.named (F := Ideal) κ "fold_c_1048576_11863283" (φ := .f32) 0x3DB504F3#32 = _
  rw [scale_named]
  exact congrArg (· * _) (shapeCast_1ab_ab_apply x0 shapeCasts_S1x1024x128_S1024x128 i d')

/-- The shift at `(i, j)` is row `i`'s maximum. -/
theorem shift_apply (X : FVec Ideal S1024x2048 .f32) (s : Fin 2048 → EReal) (i : Fin 1024)
    (hX : ∀ j, X (ix2 i j) = s j) (j : Fin 2048) : shiftOf X (ix2 i j) = Cert.Attn.rowMax s := by
  unfold shiftOf Cert.Attn.rowMax
  refine (Cert.LibPlainDot.broadcast_col 1024 2048 _ broadcasts_S1024x1_S1024x2048 i j).trans ?_
  refine (col_of_vec _ i 0).trans ?_
  refine (row_max X i).trans ?_
  exact congrArg (fun f => (Finset.univ : Finset (Fin 2048)).fold max ⊥ f) (funext hX)

/-- The weight at `(i, j)`. -/
theorem weights_apply (X : FVec Ideal S1024x2048 .f32) (s : Fin 2048 → EReal) (i : Fin 1024)
    (hX : ∀ j, X (ix2 i j) = s j) (j : Fin 2048) : weightsOf X (ix2 i j) = Cert.Attn.weight s j := by
  unfold weightsOf Cert.Attn.weight
  show Ideal.exp (X (ix2 i j) - shiftOf X (ix2 i j)) = _
  rw [hX j, shift_apply X s i hX j]

/-- Entry `(i, d)` of the tail: the weighted average of column `d` of the values. -/
theorem tail_apply (X : FVec Ideal S1024x2048 .f32) (vs : FVec Ideal S2048x128 .bf16) (s : Fin 2048 → EReal)
    (i : Fin 1024) (hX : ∀ j, X (ix2 i j) = s j) (d : Fin 128) :
    tailOf X vs (ix3 (0 : Fin 1) i d) = Cert.Attn.avgLate s (fun j => vs (ix2 j d)) := by
  unfold tailOf Cert.Attn.avgLate
  refine (shapeCast_ab_1ab_apply _ shapeCasts_S1024x128_S1x1024x128 0 i d).trans ?_
  refine congrArg₂ Ideal.div ?_ ?_
  · refine (pv_apply _ vs i d).trans (Finset.sum_congr rfl fun j _ => ?_)
    exact congrArg (· * vs (ix2 j d)) (weights_apply X s i hX j)
  · refine (Cert.LibPlainDot.broadcast_col 1024 128 _ broadcasts_S1024x1_S1024x128 i d).trans ?_
    refine (col_of_vec _ i 0).trans ?_
    refine (row_sum (weightsOf X) i).trans (Finset.sum_congr rfl fun j _ => ?_)
    exact weights_apply X s i hX j

/-- Entry `(i, d)` of the attention payload. -/
theorem attn_entry (x0 : Vec Ideal S1x1024x128 .f32) (ks vs : FVec Ideal S2048x128 .bf16) (i : Fin 1024) (d : Fin 128) :
    k0_pay3 (F := Ideal) x0 ks vs (ix3 (0 : Fin 1) i d)
      = Cert.Attn.kerEntry (((1048576 / 11863283 : ℝ)) : EReal) (fun d' => x0 (ix3 (0 : Fin 1) i d'))
          (fun j d' => ks (ix2 j d')) (fun j => vs (ix2 j d)) := by
  rw [pay_eq]
  exact tail_apply (scoresOf x0 ks) vs _ i (scores_apply x0 ks i) d

end Cert.KernelIdeal.Pay

end
-- ==== Proof.KRun.lean ====
/-
  The attention kernel's run, read as values on the extended reals.

  The program merges batch and head of `q`, `k`, `v` ([4, 16, 2048, 128] to [64, 2048, 128]), runs one region over the grid
  (head, query tile) of 64 x 2 points, and splits the result's leading axis again. Point `t` works on head `t / 2` and query
  tile `t % 2`; the keys and values of the head are narrowed into two scratch buffers at the head's first tile and kept for
  its second. By induction over the points (`inv`) the scratch buffers hold the head's keys and values after every point
  and the output tile is, entry by entry, `Attn.kerEntry` of the query row, the head's keys and the value column
  (`entryAt`). The 128 tiles cover the output array (`cover`: head `b`, row `i` belongs to point `2 b + i / 1024`), so the
  region leaves `G3` there, and the final reshape gives `OUT`, read at `(b, h, i, d)` in terms of the program's arguments
  by `OUT_apply`.
-/
import proofs.«402363_j39676907884408_3_alg».proof.Proof.KPieces
import proofs.«402363_j39676907884408_3_alg».proof.Proof.KPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx

variable (m : (ℓ : Loc nD τ sig) → Buf (Elt Ideal) ℓ) (ρ : Dev nD → PrngReg)

/-- The three arrays as the region finds them: queries, keys and values with batch and head merged into one axis of 64. -/
abbrev Qa (c : Dev nD) : Vec Ideal S64x2048x128 .f32 := V m c main_v0
abbrev Ka (c : Dev nD) : Vec Ideal S64x2048x128 .f32 := V m c main_v1
abbrev Va (c : Dev nD) : Vec Ideal S64x2048x128 .f32 := V m c main_v2

/-- The grid has 128 points. -/
theorem hN : cfg0.N = 128 := N_0

/-- Where each window's block sits at point `t`: the head is `t / 2`, the query tile `t % 2`; keys and values are whole
    per head. Decided over the grid. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The head of point `t`. -/
abbrev headOf (t : Fin cfg0.N) : Fin 64 := ⟨t.val / 2, by have := t.isLt; have := hN; omega⟩
/-- Row `r` of point `t`'s query tile, as a row of the head's 2048. -/
abbrev rowOf (t : Fin cfg0.N) (r : Fin 1024) : Fin 2048 := ⟨t.val % 2 * 1024 + r.val, by have := r.isLt; omega⟩

/-- The query block at point `t`, entry by entry. -/
theorem qblk_apply (c : Dev nD) (t : Fin cfg0.N) (r : Fin 1024) (d : Fin 128) :
    (iblk m c 0 t : Vec Ideal S1x1024x128 .f32) (ix3 (0 : Fin 1) r d) = Qa m c (ix3 (headOf t) (rowOf t r) d) := by
  obtain ⟨e0, e1, e2, -⟩ := idx_facts t
  show V m c main_v0 (((cfg0.win 0).blk t).view.emb (ix3 (0 : Fin 1) r d)) = V m c main_v0 _
  refine congrArg _ (funext fun a => Fin.ext ?_)
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 128 + 1 * d.val = d.val; omega

/-- The key block at point `t` is the whole of the head's keys. -/
theorem kblk_apply (c : Dev nD) (t : Fin cfg0.N) (r : Fin 2048) (d : Fin 128) :
    (iblk m c 1 t : Vec Ideal S1x2048x128 .f32) (ix3 (0 : Fin 1) r d) = Ka m c (ix3 (headOf t) r d) := by
  obtain ⟨-, -, -, e0, e1, e2, -⟩ := idx_facts t
  show V m c main_v1 (((cfg0.win 1).blk t).view.emb (ix3 (0 : Fin 1) r d)) = V m c main_v1 _
  refine congrArg _ (funext fun a => Fin.ext ?_)
  match a with
  | ⟨0, _⟩ => show win0_1.index t (0 : Fin 3) * 1 + 1 * 0 = t.val / 2; omega
  | ⟨1, _⟩ => show win0_1.index t (1 : Fin 3) * 2048 + 1 * r.val = r.val; omega
  | ⟨2, _⟩ => show win0_1.index t (2 : Fin 3) * 128 + 1 * d.val = d.val; omega

/-- The value block likewise. -/
theorem vblk_apply (c : Dev nD) (t : Fin cfg0.N) (r : Fin 2048) (d : Fin 128) :
    (iblk m c 2 t : Vec Ideal S1x2048x128 .f32) (ix3 (0 : Fin 1) r d) = Va m c (ix3 (headOf t) r d) := by
  obtain ⟨-, -, -, -, -, -, e0, e1, e2, -⟩ := idx_facts t
  show V m c main_v2 (((cfg0.win 2).blk t).view.emb (ix3 (0 : Fin 1) r d)) = V m c main_v2 _
  refine congrArg _ (funext fun a => Fin.ext ?_)
  match a with
  | ⟨0, _⟩ => show win0_2.index t (0 : Fin 3) * 1 + 1 * 0 = t.val / 2; omega
  | ⟨1, _⟩ => show win0_2.index t (1 : Fin 3) * 2048 + 1 * r.val = r.val; omega
  | ⟨2, _⟩ => show win0_2.index t (2 : Fin 3) * 128 + 1 * d.val = d.val; omega

/-- One entry of the result: attention of query row `i` of head `b` against that head's keys, column `d` of its values. -/
def entryAt (c : Dev nD) (b : Fin 64) (i : Fin 2048) (d : Fin 128) : EReal :=
  Cert.Attn.kerEntry (((1048576 / 11863283 : ℝ)) : EReal) (fun d' => Qa m c (ix3 b i d'))
    (fun j d' => Ka m c (ix3 b j d')) (fun j => Va m c (ix3 b j d))

/-- What holds after point `n`: the two scratch buffers hold the keys and the values of the point's head, and the
    output's staging buffer holds the point's tile of the result. -/
def Inv (c : Dev nD) (n : ℕ) (hn : n < cfg0.N) : Prop :=
  (∀ (r : Fin 2048) (d : Fin 128),
      ((outsAt0 m c n hn).2.1 : Vec Ideal S2048x128 .bf16) (ix2 r d) = Ka m c (ix3 (headOf ⟨n, hn⟩) r d))
  ∧ (∀ (r : Fin 2048) (d : Fin 128),
      ((outsAt0 m c n hn).2.2 : Vec Ideal S2048x128 .bf16) (ix2 r d) = Va m c (ix3 (headOf ⟨n, hn⟩) r d))
  ∧ (∀ (i : Fin 1024) (d : Fin 128),
      ((outsAt0 m c n hn).1 : Vec Ideal S1x1024x128 .f32) (ix3 (0 : Fin 1) i d)
        = entryAt m c (headOf ⟨n, hn⟩) (rowOf ⟨n, hn⟩ i) d)

/-- The payload of a query block against keys and values known entry by entry. -/
theorem pay_entry (c : Dev nD) (t : Fin cfg0.N) (ks vs : FVec Ideal S2048x128 .bf16)
    (hk : ∀ (r : Fin 2048) (d : Fin 128), ks (ix2 r d) = Ka m c (ix3 (headOf t) r d))
    (hv : ∀ (r : Fin 2048) (d : Fin 128), vs (ix2 r d) = Va m c (ix3 (headOf t) r d)) (i : Fin 1024) (d : Fin 128) :
    k0_pay3 (F := Ideal) (iblk m c 0 t) ks vs (ix3 (0 : Fin 1) i d) = entryAt m c (headOf t) (rowOf t i) d := by
  refine (Pay.attn_entry (iblk m c 0 t) ks vs i d).trans ?_
  unfold entryAt
  have e1 : (fun d' : Fin 128 => (iblk m c 0 t : Vec Ideal S1x1024x128 .f32) (ix3 (0 : Fin 1) i d'))
      = fun d' => Qa m c (ix3 (headOf t) (rowOf t i) d') := funext fun d' => qblk_apply m c t i d'
  have e2 : (fun (j : Fin 2048) (d' : Fin 128) => ks (ix2 j d')) = fun j d' => Ka m c (ix3 (headOf t) j d') :=
    funext fun j => funext fun d' => hk j d'
  have e3 : (fun j : Fin 2048 => vs (ix2 j d)) = fun j => Va m c (ix3 (headOf t) j d) := funext fun j => hv j d
  rw [e1, e2, e3]

/-- A head's first tile establishes the invariant from nothing. -/
theorem inv_first (c : Dev nD) (t : Fin cfg0.N) (h0 : t.val % 2 = 0) : Inv m c t.val t.isLt := by
  unfold Inv
  rw [outsAt0_A m c t h0]
  dsimp only
  have hk : ∀ (r : Fin 2048) (d : Fin 128),
      k0_pay1 (F := Ideal) (iblk m c 1 t) (ix2 r d) = Ka m c (ix3 (headOf t) r d) :=
    fun r d => (Pay.narrow_keys (iblk m c 1 t) r d).trans (kblk_apply m c t r d)
  have hv : ∀ (r : Fin 2048) (d : Fin 128),
      k0_pay2 (F := Ideal) (iblk m c 2 t) (ix2 r d) = Va m c (ix3 (headOf t) r d) :=
    fun r d => (Pay.narrow_vals (iblk m c 2 t) r d).trans (vblk_apply m c t r d)
  refine ⟨fun r d => ?_, fun r d => ?_, fun i d => ?_⟩
  · rw [Pieces.keys_first]; exact hk r d
  · rw [Pieces.vals_first]; exact hv r d
  · rw [Pieces.out_first]; exact pay_entry m c t _ _ hk hv i d

/-- A head's second tile keeps the scratch buffers and computes its tile from them. -/
theorem inv_later (c : Dev nD) (t : Fin cfg0.N) (h0 : ¬t.val % 2 = 0)
    (ih : Inv m c (t.val - 1) (Nat.lt_of_le_of_lt (Nat.sub_le _ _) t.isLt)) : Inv m c t.val t.isLt := by
  obtain ⟨ihK, ihV, -⟩ := ih
  have hh : headOf ⟨t.val - 1, Nat.lt_of_le_of_lt (Nat.sub_le _ _) t.isLt⟩ = headOf t :=
    Fin.ext (by show (t.val - 1) / 2 = t.val / 2; omega)
  rw [hh] at ihK ihV
  unfold Inv
  rw [outsAt0_B m c t h0]
  dsimp only
  refine ⟨fun r d => ?_, fun r d => ?_, fun i d => ?_⟩
  · unfold sout0_B_0; exact ihK r d
  · unfold sout0_B_1; exact ihV r d
  · rw [Pieces.out_later]; exact pay_entry m c t _ _ ihK ihV i d

/-- The invariant holds after every point. -/
theorem inv (c : Dev nD) : ∀ (n : ℕ) (hn : n < cfg0.N), Inv m c n hn := fun n =>
  Nat.strong_induction_on n fun n ih hn => by
    by_cases h0 : n % 2 = 0
    · exact inv_first m c ⟨n, hn⟩ h0
    · exact inv_later m c ⟨n, hn⟩ h0 (ih (n - 1) (by omega) _)

/-! ## From tiles to the array -/

/-- The result array with batch and head merged: entry `(b, i, d)`. -/
def G3 (c : Dev nD) : Vec Ideal S64x2048x128 .f32 := fun idx =>
  entryAt m c ⟨(idx 0).val, (idx 0).isLt⟩ ⟨(idx 1).val, (idx 1).isLt⟩ ⟨(idx 2).val, (idx 2).isLt⟩

theorem G3_apply (c : Dev nD) (b : Fin 64) (i : Fin 2048) (d : Fin 128) : G3 m c (ix3 b i d) = entryAt m c b i d := rfl

/-- What point `t` writes back is tile `t` of the result. -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  obtain ⟨-, -, -, -, -, -, -, -, -, e0, e1, e2⟩ := idx_facts t
  funext y
  obtain ⟨u, i, d, rfl⟩ : ∃ (u : Fin 1) (i : Fin 1024) (d : Fin 128), y = ix3 u i d := ⟨y 0, y 1, y 2, eq_ix3 y⟩
  obtain rfl : u = 0 := Subsingleton.elim _ _
  show ((outsAt0 m c t.val t.isLt).1 : Vec Ideal S1x1024x128 .f32) (ix3 (0 : Fin 1) i d)
      = G3 m c (((cfg0.win 3).blk t).view.emb (ix3 (0 : Fin 1) i d))
  rw [(inv m c t.val t.isLt).2.2 i d, ← G3_apply]
  refine congrArg _ (funext fun a => Fin.ext ?_)
  match a with
  | ⟨0, _⟩ => show t.val / 2 = win0_3.index t (0 : Fin 3) * 1 + 1 * 0; omega
  | ⟨1, _⟩ => show t.val % 2 * 1024 + i.val = win0_3.index t (1 : Fin 3) * 1024 + 1 * i.val; omega
  | ⟨2, _⟩ => show d.val = win0_3.index t (2 : Fin 3) * 128 + 1 * d.val; omega

/-- An index of the array is in point `t`'s tile iff each coordinate is in the tile's range on its axis. -/
theorem mem_blk (t : Fin cfg0.N) (i : S64x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v3).slice (win0_3.rect t)).set ↔ _
  rw [View.set_slice_whole, Rect.mem_set_unit]
  exact Iff.rfl

/-- Every entry of the array lies in some point's tile: head `b`, row `i` is written by point `2 b + i / 1024`. -/
theorem cover (i : S64x2048x128.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  have hN' := hN
  refine ⟨⟨2 * (i 0).val + (i 1).val / 1024, by omega⟩, flush0_3 _, ?_⟩
  rw [mem_blk]
  obtain ⟨-, -, -, -, -, -, -, -, -, e0, e1, e2⟩ := idx_facts ⟨2 * (i 0).val + (i 1).val / 1024, by omega⟩
  have q0 : (2 * (i 0).val + (i 1).val / 1024) / 2 = (i 0).val := by omega
  have q1 : (2 * (i 0).val + (i 1).val / 1024) % 2 = (i 1).val / 1024 := by omega
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 1024 ≤ (i 1).val ∧ (i 1).val < win0_3.index _ (1 : Fin 3) * 1024 + 1024
    rw [e1]; dsimp only; omega
  | ⟨2, _⟩ =>
    show win0_3.index _ (2 : Fin 3) * 128 ≤ (i 2).val ∧ (i 2).val < win0_3.index _ (2 : Fin 3) * 128 + 128
    rw [e2]; omega

/-- So the region leaves the whole result in its output array. -/
theorem final3 (c : Dev nD) : (dats m 0 c).arrAt 3 cfg0.N = G3 m c :=
  (dats m 0 c).arrAt_eq_of_cover 3 (G3 m c) (fun t _ => flushed_eq m c t) cover

/-! ## The host operations around the region: the merge of batch and head, and its undoing -/

/-- The head index of batch `b`, head `h`. -/
abbrev bh (b : Fin 4) (h : Fin 16) : Fin 64 := ⟨b.val * 16 + h.val, by have := b.isLt; have := h.isLt; omega⟩

/-- A [4, 16, 2048, 128] array reshaped to [64, 2048, 128], at `(16 b + h, i, d)`. -/
theorem merge_apply {α : Type} (x : S4x16x2048x128.Idx → α) (b : Fin 4) (h : Fin 16) (i : Fin 2048) (d : Fin 128) :
    shapeCast S64x2048x128 x shapeCasts_S4x16x2048x128_S64x2048x128 (ix3 (bh b h) i d) = x (ix4 b h i d) :=
  shapeCast_apply x shapeCasts_S4x16x2048x128_S64x2048x128 _ _ (by
    rw [Shape.rowMajor_val_four, Shape.rowMajor_val_three]; rfl)

/-- A [64, 2048, 128] array reshaped to [4, 16, 2048, 128], at `(b, h, i, d)`. -/
theorem split_apply {α : Type} (x : S64x2048x128.Idx → α) (b : Fin 4) (h : Fin 16) (i : Fin 2048) (d : Fin 128) :
    shapeCast S4x16x2048x128 x shapeCasts_S64x2048x128_S4x16x2048x128 (ix4 b h i d) = x (ix3 (bh b h) i d) :=
  shapeCast_apply x shapeCasts_S64x2048x128_S4x16x2048x128 _ _ (by
    rw [Shape.rowMajor_val_four, Shape.rowMajor_val_three]; rfl)

/-- The region finds the queries as the first argument with batch and head merged. -/
theorem Qa_eq (c : Dev nD) :
    Qa m c = shapeCast S64x2048x128 (m ((c : Thread nD τ).loc main_arg0)) shapeCasts_S4x16x2048x128_S64x2048x128 := by
  show StableHlo.after hostOps0 (fun b => m (c, b)) (Proc.devRef .tc main_v0) = _
  after_results
  rfl
theorem Ka_eq (c : Dev nD) :
    Ka m c = shapeCast S64x2048x128 (m ((c : Thread nD τ).loc main_arg1)) shapeCasts_S4x16x2048x128_S64x2048x128 := by
  show StableHlo.after hostOps0 (fun b => m (c, b)) (Proc.devRef .tc main_v1) = _
  after_results
  rfl
theorem Va_eq (c : Dev nD) :
    Va m c = shapeCast S64x2048x128 (m ((c : Thread nD τ).loc main_arg2)) shapeCasts_S4x16x2048x128_S64x2048x128 := by
  show StableHlo.after hostOps0 (fun b => m (c, b)) (Proc.devRef .tc main_v2) = _
  after_results
  rfl

/-- The program's result: the region's output with batch and head split again. -/
def OUT (c : Dev nD) : Buf (Elt Ideal) ((c.tc : Thread nD τ).loc main_v4) :=
  shapeCast S4x16x2048x128 (G3 m c) shapeCasts_S64x2048x128_S4x16x2048x128

theorem tail_eq (c : Dev nD) :
    Pipeline.afterTail₀ cfgs (dats m) 0 (V0 m) [hostOps1] c main_v4 = OUT m c := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = G3 m c :=
    (Pipeline.withArrays_arr spec0 launch0.win.arr_inj c _ _ 3).trans (final3 m c)
  rw [e]
  rfl

/-! ## The run, read -/

/-- Every weakly fair execution ends with the result array at `OUT` and the three arguments unchanged. -/
theorem run : θ_run defs (onTc (τ := τ) (main (F := Ideal))) ⟨m, fun _ => 0, ρ⟩ fun r => ∀ c : Dev nD,
      r.2.mem ((c.tc : Thread nD τ).loc main_v4) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result at `(b, h, i, d)`, in terms of the program's arguments: attention of query row `q[b, h, i, ·]` against the
    keys `k[b, h, ·, ·]`, column `v[b, h, ·, d]` of the values. -/
theorem OUT_apply (c : Dev nD) (b : Fin 4) (h : Fin 16) (i : Fin 2048) (d : Fin 128) :
    (OUT m c : Vec Ideal S4x16x2048x128 .f32) (ix4 b h i d)
      = Cert.Attn.kerEntry (((1048576 / 11863283 : ℝ)) : EReal)
          (fun d' => (m ((c : Thread nD τ).loc main_arg0) : Vec Ideal S4x16x2048x128 .f32) (ix4 b h i d'))
          (fun j d' => (m ((c : Thread nD τ).loc main_arg1) : Vec Ideal S4x16x2048x128 .f32) (ix4 b h j d'))
          (fun j => (m ((c : Thread nD τ).loc main_arg2) : Vec Ideal S4x16x2048x128 .f32) (ix4 b h j d)) := by
  unfold OUT
  refine (split_apply (G3 m c) b h i d).trans ?_
  rw [G3_apply]
  unfold entryAt
  have e1 : (fun d' : Fin 128 => Qa m c (ix3 (bh b h) i d'))
      = fun d' => (m ((c : Thread nD τ).loc main_arg0) : Vec Ideal S4x16x2048x128 .f32) (ix4 b h i d') :=
    funext fun d' => by rw [Qa_eq]; exact merge_apply _ b h i d'
  have e2 : (fun (j : Fin 2048) (d' : Fin 128) => Ka m c (ix3 (bh b h) j d'))
      = fun j d' => (m ((c : Thread nD τ).loc main_arg1) : Vec Ideal S4x16x2048x128 .f32) (ix4 b h j d') :=
    funext fun j => funext fun d' => by rw [Ka_eq]; exact merge_apply _ b h j d'
  have e3 : (fun j : Fin 2048 => Va m c (ix3 (bh b h) j d))
      = fun j => (m ((c : Thread nD τ).loc main_arg2) : Vec Ideal S4x16x2048x128 .f32) (ix4 b h j d) :=
    funext fun j => by rw [Va_eq]; exact merge_apply _ b h j d
  rw [e1, e2, e3]

end Cert.KernelIdeal.Run

end
-- ==== Proof.RefValue.lean ====
/-
  The reference's result, one entry at a time.

  The reference contracts `q` with `k` over the last axis, divides by the scale, takes the softmax over the key axis
  (shift by the row maximum, exponentiate, divide each weight by the weights' sum) and contracts the weights with `v`.
  Read at the entry `(b, h, i, d)` this is `Attn.refEntry` of the query row `q[b, h, i, ·]`, the keys `k[b, h, ·, ·]` and
  the value column `v[b, h, ·, d]`.

  The stages are read in program order at indices given by their coordinates: the score `(b, h, i, j)` is the
  contraction over `d'` divided by the scale (`score_eq`); the row maximum at `(b, h, i)` is the fold of `max` from
  `−∞` over the row's scores, and the further maximum with `−∞` changes nothing (`rowmax_eq`); the weight at
  `(b, h, i, j)` is the exponential of the score less the row maximum (`weight_eq`); the weights' sum at `(b, h, i)`
  starts from zero (`weightsum_eq`); the result is the contraction over `j` of the normalised weights with `v`.
-/
import proofs.«402363_j39676907884408_3_alg».proof.Proof.Gen.ReferenceIdeal.Read
import proofs.«402363_j39676907884408_3_alg».proof.Proof.Attn
import Idealize.ShloMosaic.Lib.ValueIdx
import Idealize.ShloMosaic.PureOps.Ideal.Laws

noncomputable section

namespace Cert.RefValue

open Idealize.ShloMosaic Idealize.ShloMosaic.ValueIdx Cert.ReferenceIdeal
open Cert.ReferenceIdeal.Gen Cert.ReferenceIdeal.Read

/-- The reference's divisor, the f32 nearest to `√128`, is the dyadic `11863283 / 2^20`. -/
theorem ofBits_scale : Ideal.ofBits .f32 0x413504F3#32 = ((11863283 / 1048576 : ℝ) : EReal) := by
  simp [Ideal.ofBits, Ideal.ieee, -EReal.coe_mul]; norm_num

/-- The pattern `0xFF800000` (sign set, exponent all ones, fraction zero) is `−∞`. -/
theorem ofBits_neg_inf : Ideal.ofBits .f32 0xFF800000#32 = (⊥ : EReal) := by
  simp [Ideal.ofBits, Ideal.ieee]

/-! ### The stages' index functions at an index given by its coordinates -/

/-- The first contraction's left operand at score `(b, h, i, j)`, term `d'`: `q[b, h, i, d']`. -/
theorem lidx0 (b : Fin 4) (h : Fin 16) (i j : Fin 2048) (d' : Fin 128) :
    lidx_main_v0 (ix4 b h i j) d' = ix4 b h i d' :=
  funext fun a => Fin.ext (by match a with | ⟨0, _⟩ => rfl | ⟨1, _⟩ => rfl | ⟨2, _⟩ => rfl | ⟨3, _⟩ => rfl)

/-- Its right operand: `k[b, h, j, d']`. -/
theorem ridx0 (b : Fin 4) (h : Fin 16) (i j : Fin 2048) (d' : Fin 128) :
    ridx_main_v0 (ix4 b h i j) d' = ix4 b h j d' :=
  funext fun a => Fin.ext (by match a with | ⟨0, _⟩ => rfl | ⟨1, _⟩ => rfl | ⟨2, _⟩ => rfl | ⟨3, _⟩ => rfl)

/-- The row maximum broadcast back along the key axis is read at the row `(b, h, i)`. -/
theorem idx67 (b : Fin 4) (h : Fin 16) (i j : Fin 2048) :
    idx_main_v6 (idx_main_v7 (ix4 b h i j)) = ix3 b h i :=
  funext fun a => Fin.ext (by match a with | ⟨0, _⟩ => rfl | ⟨1, _⟩ => rfl | ⟨2, _⟩ => rfl)

/-- So is the weights' sum broadcast back along the key axis. -/
theorem idx1112 (b : Fin 4) (h : Fin 16) (i j : Fin 2048) :
    idx_main_v11 (idx_main_v12 (ix4 b h i j)) = ix3 b h i :=
  funext fun a => Fin.ext (by match a with | ⟨0, _⟩ => rfl | ⟨1, _⟩ => rfl | ⟨2, _⟩ => rfl)

/-- Term `j` of the weights' sum at the row `(b, h, i)` is the weight at `(b, h, i, j)`. -/
theorem idx10 (b : Fin 4) (h : Fin 16) (i j : Fin 2048) :
    idx_main_v10 (ix3 b h i) j = ix4 b h i j :=
  funext fun a => Fin.ext (by match a with | ⟨0, _⟩ => rfl | ⟨1, _⟩ => rfl | ⟨2, _⟩ => rfl | ⟨3, _⟩ => rfl)

/-- The last contraction's left operand at the entry `(b, h, i, d)`, term `j`: the normalised weight `(b, h, i, j)`. -/
theorem lidx14 (b : Fin 4) (h : Fin 16) (i : Fin 2048) (d : Fin 128) (j : Fin 2048) :
    lidx_main_v14 (ix4 b h i d) j = ix4 b h i j :=
  funext fun a => Fin.ext (by match a with | ⟨0, _⟩ => rfl | ⟨1, _⟩ => rfl | ⟨2, _⟩ => rfl | ⟨3, _⟩ => rfl)

/-- Its right operand: `v[b, h, j, d]`. -/
theorem ridx14 (b : Fin 4) (h : Fin 16) (i : Fin 2048) (d : Fin 128) (j : Fin 2048) :
    ridx_main_v14 (ix4 b h i d) j = ix4 b h j d :=
  funext fun a => Fin.ext (by match a with | ⟨0, _⟩ => rfl | ⟨1, _⟩ => rfl | ⟨2, _⟩ => rfl | ⟨3, _⟩ => rfl)

/-! ### The stages -/

/-- The score at `(b, h, i, j)`: the contraction of `q[b, h, i, ·]` with `k[b, h, j, ·]`, divided by the scale. -/
theorem score_eq (x0 x1 : FVec Ideal S4x16x2048x128 .f32) (b : Fin 4) (h : Fin 16) (i j : Fin 2048) :
    val_main_v2 (F := Ideal) x0 x1 (ix4 b h i j)
      = Cert.Attn.scoreDiv (((11863283 / 1048576 : ℝ)) : EReal) (fun d' => x0 (ix4 b h i d'))
          (fun j d' => x1 (ix4 b h j d')) j := by
  rw [val_main_v2_apply, val_main_v0_apply, val_main_v1_apply, val_main_cst_apply, Ideal.hostDivf_def,
    Ideal.ofBits_def, ofBits_scale]
  unfold Cert.Attn.scoreDiv
  refine congrArg (fun s => Ideal.div s _) (Finset.sum_congr rfl fun d' _ => ?_)
  rw [lidx0, ridx0]

/-- A maximum-reduction over the key axis from `−∞`, read at the row `(b, h, i)`: `max` commutes and associates, so
    the reduction is the fold of `max` from `−∞` over the row's `2048` entries, whatever the order. -/
theorem reduce_max_row (y : FVec Ideal S4x16x2048x2048 .f32) (b : Fin 4) (h : Fin 16) (i : Fin 2048) :
    Host.reduce FloatOps.maximumf y (val_main_cst_0 (F := Ideal)) reducesTo_S4x16x2048x2048_S4x16x2048_d3 h_S_
        (ix3 b h i)
      = Cert.Attn.rowMax (fun j => y (ix4 b h i j)) := by
  have hr : Shape.Reduces S4x16x2048x2048 [3] S4x16x2048 := by decide
  refine (Host.reduce_eq_fold_single FloatOps.maximumf y _ reducesTo_S4x16x2048x2048_S4x16x2048_d3 hr h_S_
    (ix3 b h i)).trans ?_
  have e0 : val_main_cst_0 (F := Ideal) (Shape.Idx.first h_S_) = (⊥ : EReal) :=
    (val_main_cst_0_apply _).trans ofBits_neg_inf
  have e1 : (y ∘ hr.lift (ix3 b h i)) = fun j : Fin 2048 => y (ix4 b h i j) :=
    funext fun j => congrArg y (funext fun a => Fin.ext (by
      match a with | ⟨0, _⟩ => rfl | ⟨1, _⟩ => rfl | ⟨2, _⟩ => rfl | ⟨3, _⟩ => rfl))
  rw [e0, e1]
  rfl

/-- The row maximum at `(b, h, i)`: the maximum with `−∞` of the reduction is the reduction, `max ⊥ m = m`. -/
theorem rowmax_eq (x0 x1 : FVec Ideal S4x16x2048x128 .f32) (b : Fin 4) (h : Fin 16) (i : Fin 2048) :
    val_main_v5 (F := Ideal) x0 x1 (ix3 b h i)
      = Cert.Attn.rowMax (fun j => val_main_v2 (F := Ideal) x0 x1 (ix4 b h i j)) := by
  rw [val_main_v5_apply, val_main_v4_apply, val_main_cst_1_apply, Ideal.maximumf_def, Ideal.ofBits_def,
    ofBits_neg_inf, max_bot_left]
  exact reduce_max_row _ b h i

/-- The weight at `(b, h, i, j)`: the exponential of the score less the row maximum. -/
theorem weight_eq (x0 x1 : FVec Ideal S4x16x2048x128 .f32) (b : Fin 4) (h : Fin 16) (i j : Fin 2048) :
    val_main_v9 (F := Ideal) x0 x1 (ix4 b h i j)
      = Cert.Attn.weight (fun j' => val_main_v2 (F := Ideal) x0 x1 (ix4 b h i j')) j := by
  rw [val_main_v9_apply, val_main_v8_apply, val_main_v7_apply, val_main_v6_apply, Ideal.hostUnary_exp_def,
    Ideal.subf_def, idx67, rowmax_eq]
  rfl

/-- The weights' sum at `(b, h, i)`: from the initial value zero, `0 + ∑ j, w j = ∑ j, w j`. -/
theorem weightsum_eq (x0 x1 : FVec Ideal S4x16x2048x128 .f32) (b : Fin 4) (h : Fin 16) (i : Fin 2048) :
    val_main_v10 (F := Ideal) x0 x1 (ix3 b h i)
      = ∑ j : Fin 2048, Cert.Attn.weight (fun j' => val_main_v2 (F := Ideal) x0 x1 (ix4 b h i j')) j := by
  rw [val_main_v10_apply, val_main_cst_2_apply, Ideal.ofBits_def, Ideal.ofBits_zero_f32, zero_add]
  refine Finset.sum_congr rfl fun j _ => ?_
  rw [idx10, weight_eq]

/-- The reference's result at the entry `(b, h, i, d)`. -/
theorem ref_entry (x0 x1 x2 : FVec Ideal S4x16x2048x128 .f32) (b : Fin 4) (h : Fin 16) (i : Fin 2048) (d : Fin 128) :
    Cert.ReferenceIdeal.Read.val_main_v14 (F := Ideal) x0 x1 x2 (ix4 b h i d)
      = Cert.Attn.refEntry (((11863283 / 1048576 : ℝ)) : EReal) (fun d' => x0 (ix4 b h i d'))
          (fun j d' => x1 (ix4 b h j d')) (fun j => x2 (ix4 b h j d)) := by
  have hs : (fun j' => val_main_v2 (F := Ideal) x0 x1 (ix4 b h i j'))
      = Cert.Attn.scoreDiv (((11863283 / 1048576 : ℝ)) : EReal) (fun d' => x0 (ix4 b h i d'))
          (fun j d' => x1 (ix4 b h j d')) := funext fun j => score_eq x0 x1 b h i j
  rw [val_main_v14_apply]
  unfold Cert.Attn.refEntry Cert.Attn.avgEarly
  refine Finset.sum_congr rfl fun j _ => ?_
  rw [lidx14, ridx14, val_main_v13_apply, val_main_v12_apply, val_main_v11_apply, Ideal.hostDivf_def, idx1112,
    weightsum_eq, weight_eq, hs]

end Cert.RefValue

end
-- ==== Proof.Finite.lean ====
/-
  The precondition read back: every entry of each of the three inputs is a real number.

  The precondition is the conjunction, over the three inputs, of "every entry's absolute value is below `+∞`", each
  conjunct a reduction by `and` over all four axes. A reduction by `and` that comes out 1 met only 1s, so every entry
  `x` has `max x (−x) < ⊤`; that excludes `⊤` and `⊥`, and what is left of the extended reals is the reals.
-/
import proofs.«402363_j39676907884408_3_alg».proof.Pre_finite_inputs
import proofs.«402363_j39676907884408_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

/-- `+∞`'s pattern. -/
theorem ofBits_pos_inf : Ideal.ofBits .f32 0x7F800000#32 = ⊤ := by
  simp [Ideal.ofBits, Ideal.ieee]

/-- An extended real whose absolute value compares below `+∞` is a real. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

instance : Subsingleton S_.Idx := ⟨fun a b => funext fun d => d.elim0⟩

/-- One conjunct of the precondition, read back at an entry. -/
theorem entry_real (x : FVec Ideal S4x16x2048x128 .f32)
    (h : Host.reduce IntOp.andi
        (cmpf .olt (Host.absf x) (broadcastInDim S4x16x2048x128 ![] Facts.bcast_S_S4x16x2048x128 (constant (F := Ideal) S_ .f32 0x7F800000#32)))
        (constantI S_ 1 1#1) Facts.reducesTo_S4x16x2048x128_S_d0_1_2_3 Facts.h_S_ ValueIdx.ix0 = 1#1)
    (i : S4x16x2048x128.Idx) : ∃ r : ℝ, x i = (r : EReal) := by
  have hi := Host.reduce_andi_all _ _ _ _ ValueIdx.ix0 h i
  refine real_of_abs_lt (x i) ?_
  have e : (broadcastInDim S4x16x2048x128 ![] Facts.bcast_S_S4x16x2048x128 (constant (F := Ideal) S_ .f32 0x7F800000#32)) i = ⊤ :=
    ofBits_pos_inf
  have hi' : Ideal.cmp .olt (max (x i) (-(x i)))
      ((broadcastInDim S4x16x2048x128 ![] Facts.bcast_S_S4x16x2048x128 (constant (F := Ideal) S_ .f32 0x7F800000#32)) i) = 1#1 := hi
  rw [e] at hi'
  exact hi'

/-- The precondition makes every entry of every input a real. -/
theorem finite_of_pre (x0 x1 x2 : FVec Ideal S4x16x2048x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨entry_real x0 h0', entry_real x1 h1, entry_real x2 h2⟩

end Cert.Finite

end
-- ==== Proof.lean ====
/-
  Scaled dot-product attention, `softmax (q kᵀ / √128) v` over [4, 16, 2048, 128] inputs: the kernel against the reference.

  The kernel multiplies the queries by a constant before the contraction, where the reference divides the contraction by
  the f32 nearest to `√128`; the constant is read as the exact reciprocal of that divisor. The kernel keeps the
  softmax's division to the end, `(∑ p v) / ∑ p`, where the reference normalises each weight first. On finite inputs
  the two are the same real number entry by entry (`Attn.kerEntry_eq_refEntry`).

  * the kernel's run ends with its result at `Run.OUT`, whose entry `(b, h, i, d)` is `Attn.kerEntry` of `q[b, h, i, ·]`,
    `k[b, h, ·, ·]` and `v[b, h, ·, d]` (KRun.lean over KPieces.lean and KPay.lean);
  * the reference's run ends with its result the composed stages, whose entry `(b, h, i, d)` is `Attn.refEntry` of the
    same three (RefValue.lean);
  * the precondition makes every input entry a real (Finite.lean).
-/
import proofs.«402363_j39676907884408_3_alg».proof.Defs
import proofs.«402363_j39676907884408_3_alg».proof.Proof.Gen.Kernel
import proofs.«402363_j39676907884408_3_alg».proof.Proof.Gen.Kernel.Skeleton
import proofs.«402363_j39676907884408_3_alg».proof.Proof.Gen.Kernel.Launch
import proofs.«402363_j39676907884408_3_alg».proof.Proof.Gen.Kernel.Points
import proofs.«402363_j39676907884408_3_alg».proof.Proof.Gen.Kernel.Frame
import proofs.«402363_j39676907884408_3_alg».proof.Proof.Gen.KernelIdeal
import proofs.«402363_j39676907884408_3_alg».proof.Proof.Gen.KernelIdeal.Skeleton
import proofs.«402363_j39676907884408_3_alg».proof.Proof.Gen.KernelIdeal.Launch
import proofs.«402363_j39676907884408_3_alg».proof.Proof.Gen.KernelIdeal.Points
import proofs.«402363_j39676907884408_3_alg».proof.Proof.Gen.KernelIdeal.Frame
import proofs.«402363_j39676907884408_3_alg».proof.Proof.Gen.ReferenceIdeal
import proofs.«402363_j39676907884408_3_alg».proof.Proof.Gen.ReferenceIdeal.Run
import proofs.«402363_j39676907884408_3_alg».proof.Proof.Gen.ReferenceIdeal.Read
import proofs.«402363_j39676907884408_3_alg».proof.Proof.Gen.Pre_finite_inputs
import proofs.«402363_j39676907884408_3_alg».proof.Proof.Attn
import proofs.«402363_j39676907884408_3_alg».proof.Proof.KRun
import proofs.«402363_j39676907884408_3_alg».proof.Proof.RefValue
import proofs.«402363_j39676907884408_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's factor named as the reciprocal of the reference's divisor. -/
theorem preserves : Cert.preserves_Kernel_KernelIdeal :=
  IdealRules.named_const.statement Cert.KernelIdeal.κ "fold_c_1048576_11863283" .f32 0x3DB504F3#32
    ((1048576 / 11863283 : ℝ) : EReal) rfl

/-- The reference's composed stages and the kernel's result are one array when every input entry is a real. -/
theorem result_eq (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Run.OUT m c := by
  obtain ⟨f0, f1, f2⟩ := Cert.Finite.finite_of_pre _ _ _ (hpre c)
  funext idx
  obtain ⟨b, h, i, d, rfl⟩ : ∃ (b : Fin 4) (h : Fin 16) (i : Fin 2048) (d : Fin 128), idx = ix4 b h i d :=
    ⟨idx 0, idx 1, idx 2, idx 3, eq_ix4 idx⟩
  rw [Cert.RefValue.ref_entry]
  refine Eq.trans ?_ (Cert.KernelIdeal.Run.OUT_apply m c b h i d).symm
  have hc : ((1048576 / 11863283 : ℝ)) = 1 / (11863283 / 1048576 : ℝ) := by norm_num
  rw [hc]
  exact (Cert.Attn.kerEntry_eq_refEntry (11863283 / 1048576 : ℝ) (by norm_num) _ _ _
    (fun d' => f0 _) (fun j d' => f1 _) (fun j => f2 _)).symm

theorem algebraic : Cert.algebraic_KernelIdeal_ReferenceIdeal := by
  intro m ρ m' ρ' hpre hagree
  refine ⟨fun c => Cert.KernelIdeal.Run.OUT m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact result_eq m c hpre

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
